-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S4000x128 : Shape := ⟨2, ![4000, 128]⟩
abbrev S5000x128 : Shape := ⟨2, ![5000, 128]⟩

abbrev nBuf : Space → Nat
  | .hbm => 46
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S1x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S1x128, .f32⟩
  | .hbm, ⟨45, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S800000x128.size a
  hwx0_7 : ∀ i : grid0.Coords, EltTy.bits .f32 = 32 ∨ (Rect.block (s := S800000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000x256 : Shape := ⟨2, ![50000, 256]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x256, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call2_cst : Ref sig .tc := ⟨.hbm, 60, rfl⟩
abbrev main_call2_v0 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.MlpLayer.lean ====
/-
  A two-layer perceptron on a pair of row-aligned inputs, entry by entry, on the extended reals.

  For inputs a, b with R rows of 128 features each, a first weight matrix of 256 rows (the first 128 rows meet a,
  the last 128 meet b), and a second weight matrix of 128 rows, the value at row p and column q is

      Σ_k max(Σ_j a(p,j)·W₁(j,k) + Σ_j b(p,j)·W₁(128+j,k) + β₁(k), 0) · W₂(k,q) + β₂(q).

  Two spellings of it meet in this certificate. The SPLIT spelling takes the two halves of W₁ as separate 128×128
  matrices and the biases as 1×128 rows (what a tiled body is handed); the JOINED spelling takes the whole 256×128
  matrix against the row (a(p,·) ++ b(p,·)) and the biases as length-128 vectors (what a plain matrix product of the
  concatenated inputs computes). They agree because a sum over 256 = 128 + 128 indices is the sum over the first 128
  plus the sum over the last 128: only commutativity and associativity of + on the extended reals is used, so no
  finiteness is asked of any entry.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.MlpLayer

open Idealize.ShloMosaic Idealize.ShloMosaic.ValueIdx

/-- A matrix shape. -/
abbrev Mat (r c : Nat) : Shape := ⟨2, ![r, c]⟩
/-- A vector shape. -/
abbrev Vc (c : Nat) : Shape := ⟨1, ![c]⟩

variable {R : Nat}

/-! ## The split spelling -/

/-- The hidden unit k of row p after the activation: max(a(p,·)·Wt(·,k) + b(p,·)·Wb(·,k) + β₁(k), 0). -/
def hiddenS (a b : (Mat R 128).Idx → EReal) (wt wb : (Mat 128 128).Idx → EReal) (c1 : (Mat 1 128).Idx → EReal)
    (p : Fin R) (k : Fin 128) : EReal :=
  max (((∑ j : Fin 128, a (ix2 p j) * wt (ix2 j k)) + (∑ j : Fin 128, b (ix2 p j) * wb (ix2 j k))) + c1 (ix2 (0 : Fin 1) k)) 0

/-- The output at row p, column q: Σ_k hidden(p,k)·W₂(k,q) + β₂(q). -/
def outS (a b : (Mat R 128).Idx → EReal) (wt wb : (Mat 128 128).Idx → EReal) (c1 : (Mat 1 128).Idx → EReal)
    (w2 : (Mat 128 128).Idx → EReal) (c2 : (Mat 1 128).Idx → EReal) (p : Fin R) (q : Fin 128) : EReal :=
  (∑ k : Fin 128, hiddenS a b wt wb c1 p k * w2 (ix2 k q)) + c2 (ix2 (0 : Fin 1) q)

/-- The split spelling depends on its arguments only through row p of the inputs and the entries of the weights and
    biases: the same rows and entries read through other arrays (a tile of an array, the array itself) give the same value. -/
theorem outS_congr {R' : Nat} (a b : (Mat R 128).Idx → EReal) (a' b' : (Mat R' 128).Idx → EReal)
    (wt wb w2 wt' wb' w2' : (Mat 128 128).Idx → EReal) (c1 c2 c1' c2' : (Mat 1 128).Idx → EReal) (p : Fin R) (p' : Fin R') (q : Fin 128)
    (ha : ∀ j : Fin 128, a (ix2 p j) = a' (ix2 p' j)) (hb : ∀ j : Fin 128, b (ix2 p j) = b' (ix2 p' j))
    (hwt : ∀ j k : Fin 128, wt (ix2 j k) = wt' (ix2 j k)) (hwb : ∀ j k : Fin 128, wb (ix2 j k) = wb' (ix2 j k))
    (hw2 : ∀ j k : Fin 128, w2 (ix2 j k) = w2' (ix2 j k))
    (hc1 : ∀ k : Fin 128, c1 (ix2 (0 : Fin 1) k) = c1' (ix2 (0 : Fin 1) k)) (hc2 : ∀ k : Fin 128, c2 (ix2 (0 : Fin 1) k) = c2' (ix2 (0 : Fin 1) k)) :
    outS a b wt wb c1 w2 c2 p q = outS a' b' wt' wb' c1' w2' c2' p' q := by
  unfold outS hiddenS
  simp only [ha, hb, hwt, hwb, hw2, hc1, hc2]

/-! ## The joined spelling -/

/-- Entry j of the row (a(p,·) ++ b(p,·)). -/
def cat (a b : (Mat R 128).Idx → EReal) (p : Fin R) (j : Fin 256) : EReal :=
  if h : j.val < 128 then a (ix2 p ⟨j.val, h⟩) else b (ix2 p ⟨j.val - 128, by have := j.isLt; omega⟩)

/-- The hidden unit k of row p: max((a(p,·) ++ b(p,·))·W₁(·,k) + β₁(k), 0). -/
def hiddenC (a b : (Mat R 128).Idx → EReal) (w1 : (Mat 256 128).Idx → EReal) (c1 : (Vc 128).Idx → EReal)
    (p : Fin R) (k : Fin 128) : EReal :=
  max ((∑ j : Fin 256, cat a b p j * w1 (ix2 j k)) + c1 (ix1 k)) 0

/-- The output at row p, column q. -/
def outC (a b : (Mat R 128).Idx → EReal) (w1 : (Mat 256 128).Idx → EReal) (c1 : (Vc 128).Idx → EReal)
    (w2 : (Mat 128 128).Idx → EReal) (c2 : (Vc 128).Idx → EReal) (p : Fin R) (q : Fin 128) : EReal :=
  (∑ k : Fin 128, hiddenC a b w1 c1 p k * w2 (ix2 k q)) + c2 (ix1 q)

/-! ## The two spellings agree -/

/-- A sum over the 256 entries of the joined row is the sum over a's 128 plus the sum over b's 128. -/
theorem sum_cat (a b : (Mat R 128).Idx → EReal) (w1 : (Mat 256 128).Idx → EReal) (p : Fin R) (k : Fin 128) :
    (∑ j : Fin 256, cat a b p j * w1 (ix2 j k))
      = (∑ j : Fin 128, a (ix2 p j) * w1 (ix2 (⟨j.val, by have := j.isLt; omega⟩ : Fin 256) k))
        + (∑ j : Fin 128, b (ix2 p j) * w1 (ix2 (⟨128 + j.val, by have := j.isLt; omega⟩ : Fin 256) k)) := by
  have h := Fin.sum_univ_add (M := EReal) (a := 128) (b := 128) (fun j : Fin (128 + 128) => cat a b p j * w1 (ix2 j k))
  refine h.trans (congrArg₂ (· + ·) ?_ ?_)
  · refine Finset.sum_congr rfl fun j _ => ?_
    have hj : ((Fin.castAdd 128 j : Fin (128 + 128)) : Fin 256).val < 128 := j.isLt
    unfold cat
    rw [dif_pos hj]
    rfl
  · refine Finset.sum_congr rfl fun j _ => ?_
    have hj : ¬ ((Fin.natAdd 128 j : Fin (128 + 128)) : Fin 256).val < 128 := by
      show ¬ (128 + j.val < 128); omega
    unfold cat
    rw [dif_neg hj]
    congr 2
    refine congrArg (fun x : Fin 128 => ix2 p x) (Fin.ext ?_)
    show 128 + j.val - 128 = j.val
    omega

/-- The split spelling at the two halves of W₁ and the biases as rows is the joined spelling. -/
theorem outS_eq_outC (a b : (Mat R 128).Idx → EReal) (w1 : (Mat 256 128).Idx → EReal) (c1 c2 : (Vc 128).Idx → EReal)
    (w2 : (Mat 128 128).Idx → EReal) (wt wb : (Mat 128 128).Idx → EReal) (r1 r2 : (Mat 1 128).Idx → EReal)
    (hwt : ∀ (j k : Fin 128), wt (ix2 j k) = w1 (ix2 (⟨j.val, by have := j.isLt; omega⟩ : Fin 256) k))
    (hwb : ∀ (j k : Fin 128), wb (ix2 j k) = w1 (ix2 (⟨128 + j.val, by have := j.isLt; omega⟩ : Fin 256) k))
    (hr1 : ∀ k : Fin 128, r1 (ix2 (0 : Fin 1) k) = c1 (ix1 k)) (hr2 : ∀ k : Fin 128, r2 (ix2 (0 : Fin 1) k) = c2 (ix1 k))
    (p : Fin R) (q : Fin 128) :
    outS a b wt wb r1 w2 r2 p q = outC a b w1 c1 w2 c2 p q := by
  unfold outS outC
  rw [hr2 q]
  congr 1
  refine Finset.sum_congr rfl fun k _ => ?_
  congr 1
  unfold hiddenS hiddenC
  rw [sum_cat, hr1 k]
  congr 3
  · exact Finset.sum_congr rfl fun j _ => by rw [hwt j k]
  · exact Finset.sum_congr rfl fun j _ => by rw [hwb j k]

/-! ## The halves of W₁ as slices, the biases as rows -/

/-- The top half of a 256×128 matrix, cut out as rows 0 … 127. -/
theorem slice_top_apply {α : Type} (w1 : (Mat 256 128).Idx → α) (h : (Mat 256 128).Slices ![0, 0] (Mat 128 128)) (j k : Fin 128) :
    extractStridedSlice (Mat 128 128) ![0, 0] w1 h (ix2 j k) = w1 (ix2 (⟨j.val, by have := j.isLt; omega⟩ : Fin 256) k) :=
  slice2_axis0_apply 0 w1 h j k _ (Nat.zero_add _).symm

/-- The bottom half, cut out as rows 128 … 255. -/
theorem slice_bot_apply {α : Type} (w1 : (Mat 256 128).Idx → α) (h : (Mat 256 128).Slices ![128, 0] (Mat 128 128)) (j k : Fin 128) :
    extractStridedSlice (Mat 128 128) ![128, 0] w1 h (ix2 j k) = w1 (ix2 (⟨128 + j.val, by have := j.isLt; omega⟩ : Fin 256) k) :=
  slice2_axis0_apply 128 w1 h j k _ rfl

/-- A length-128 vector reshaped to one row reads the vector. -/
theorem row_apply {α : Type} (b : (Vc 128).Idx → α) (h : (Vc 128).ShapeCasts (Mat 1 128)) (k : Fin 128) :
    shapeCast (Mat 1 128) b h (ix2 (0 : Fin 1) k) = b (ix1 k) :=
  shapeCast_a_1a_apply b h 0 k

/-- The split spelling at the two slices of W₁ and the reshaped biases is the joined spelling. -/
theorem outS_slices (a b : (Mat R 128).Idx → EReal) (w1 : (Mat 256 128).Idx → EReal) (c1 c2 : (Vc 128).Idx → EReal)
    (w2 : (Mat 128 128).Idx → EReal) (h0 : (Mat 256 128).Slices ![0, 0] (Mat 128 128)) (h128 : (Mat 256 128).Slices ![128, 0] (Mat 128 128))
    (hc : (Vc 128).ShapeCasts (Mat 1 128)) (p : Fin R) (q : Fin 128) :
    outS a b (extractStridedSlice (Mat 128 128) ![0, 0] w1 h0) (extractStridedSlice (Mat 128 128) ![128, 0] w1 h128)
        (shapeCast (Mat 1 128) c1 hc) w2 (shapeCast (Mat 1 128) c2 hc) p q
      = outC a b w1 c1 w2 c2 p q :=
  outS_eq_outC a b w1 c1 c2 w2 _ _ _ _ (slice_top_apply w1 h0) (slice_bot_apply w1 h128) (row_apply c1 hc) (row_apply c2 hc) p q

/-! ## One round of message passing -/

/-- One round of message passing over 800000 edges and 50000 nodes: the messages are the perceptron of the two gathered
    endpoint rows, they are added up per destination node by `scatter`, and each node's new features are the second
    perceptron of its own features and its sum, under a maximum with zero. The gathered rows and the scatter are
    parameters: nothing here looks inside them. -/
def gnn (gr gc : (Mat 800000 128).Idx → EReal) (scatter : ((Mat 800000 128).Idx → EReal) → (Mat 50000 128).Idx → EReal)
    (x : (Mat 50000 128).Idx → EReal)
    (mW1 : (Mat 256 128).Idx → EReal) (mb1 : (Vc 128).Idx → EReal) (mW2 : (Mat 128 128).Idx → EReal) (mb2 : (Vc 128).Idx → EReal)
    (uW1 : (Mat 256 128).Idx → EReal) (ub1 : (Vc 128).Idx → EReal) (uW2 : (Mat 128 128).Idx → EReal) (ub2 : (Vc 128).Idx → EReal) :
    (Mat 50000 128).Idx → EReal :=
  fun i => max (outC x (scatter fun e => outC gr gc mW1 mb1 mW2 mb2 (e 0) (e 1)) uW1 ub1 uW2 ub2 (i 0) (i 1)) 0

end Idealize.ShloMosaic.MlpLayer

end
-- ==== Proof.MlpBody.lean ====
/-
  The tiled body of the perceptron at an entry.

  A tile of B rows of each input, the two halves of the first weight matrix, the second weight matrix and the two bias
  rows are combined by three plain matrix products into zero accumulators (the operands narrowed to bf16 first, which
  is the identity on the extended reals), two row broadcasts and one maximum with zero. At entry (p, q) of the tile that
  is the split spelling of the perceptron at row p and column q of the tile; with one more maximum with zero after it,
  the same under that maximum.
-/
import proofs.«135095_j60619168416174_1_alg».proof.Proof.LibPlainDot
import proofs.«135095_j60619168416174_1_alg».proof.Proof.MlpLayer

noncomputable section

open scoped BigOperators

namespace Idealize.ShloMosaic.MlpLayer

open Idealize.ShloMosaic Idealize.ShloMosaic.ValueIdx

/-- The hidden layer of the tile, as the body computes it, at entry (p, k). -/
theorem hidden_apply (B : Nat) (x0 x1 : FVec Ideal (Mat B 128) .f32) (wt wb : FVec Ideal (Mat 128 128) .f32)
    (c1 : FVec Ideal (Mat 1 128) .f32) (hb : (Mat 1 128).Broadcasts (Mat B 128)) (h16 : FTy.bf16.bits < FTy.f32.bits)
    (p : Fin B) (k : Fin 128) :
    (truncf .bf16 (maximumf (addf (addf
        (matmul (DotDims.plain B 128 128) none (truncf .bf16 x0 h16) (truncf .bf16 wt h16) (constant (Mat B 128) .f32 0x00000000#32))
        (matmul (DotDims.plain B 128 128) none (truncf .bf16 x1 h16) (truncf .bf16 wb h16) (constant (Mat B 128) .f32 0x00000000#32)))
        (broadcastTo (Mat B 128) c1 hb))
        (broadcast (Mat B 128) (Scalar.ofBits (F := Ideal) .f32 0x00000000#32))) h16 : FVec Ideal (Mat B 128) .bf16) (ix2 p k)
      = hiddenS x0 x1 wt wb c1 p k := by
  rw [truncf_apply, maximumf_apply, addf_apply, addf_apply, broadcastTo_1b_ab_apply, broadcast_apply]
  show max ((FloatOps.matmul _ none _ _ _ (ix2 p k) + FloatOps.matmul _ none _ _ _ (ix2 p k)) + _) (Ideal.ofBits .f32 0x00000000#32) = _
  rw [PlainDot.matmul_zero_apply, PlainDot.matmul_zero_apply, Ideal.ofBits_zero_f32]
  rfl

/-- The body's result at entry (p, q) of the tile is the split spelling of the perceptron there. -/
theorem body_apply (B : Nat) (x0 x1 : FVec Ideal (Mat B 128) .f32) (wt wb w2 : FVec Ideal (Mat 128 128) .f32)
    (c1 c2 : FVec Ideal (Mat 1 128) .f32) (hb : (Mat 1 128).Broadcasts (Mat B 128)) (h16 : FTy.bf16.bits < FTy.f32.bits)
    (p : Fin B) (q : Fin 128) :
    addf (matmul (DotDims.plain B 128 128) none
        (truncf .bf16 (maximumf (addf (addf
          (matmul (DotDims.plain B 128 128) none (truncf .bf16 x0 h16) (truncf .bf16 wt h16) (constant (Mat B 128) .f32 0x00000000#32))
          (matmul (DotDims.plain B 128 128) none (truncf .bf16 x1 h16) (truncf .bf16 wb h16) (constant (Mat B 128) .f32 0x00000000#32)))
          (broadcastTo (Mat B 128) c1 hb))
          (broadcast (Mat B 128) (Scalar.ofBits (F := Ideal) .f32 0x00000000#32))) h16)
        (truncf .bf16 w2 h16) (constant (Mat B 128) .f32 0x00000000#32))
      (broadcastTo (Mat B 128) c2 hb) (ix2 p q)
      = outS x0 x1 wt wb c1 w2 c2 p q := by
  rw [addf_apply, broadcastTo_1b_ab_apply]
  show FloatOps.matmul _ none _ _ _ (ix2 p q) + _ = _
  rw [PlainDot.matmul_zero_apply]
  unfold outS
  refine congrArg (· + c2 (ix2 (0 : Fin 1) q)) (Finset.sum_congr rfl fun k _ => ?_)
  rw [hidden_apply, truncf_apply]

/-- The same under one more maximum with zero. -/
theorem body_relu_apply (B : Nat) (x0 x1 : FVec Ideal (Mat B 128) .f32) (wt wb w2 : FVec Ideal (Mat 128 128) .f32)
    (c1 c2 : FVec Ideal (Mat 1 128) .f32) (hb : (Mat 1 128).Broadcasts (Mat B 128)) (h16 : FTy.bf16.bits < FTy.f32.bits)
    (p : Fin B) (q : Fin 128) :
    maximumf (addf (matmul (DotDims.plain B 128 128) none
        (truncf .bf16 (maximumf (addf (addf
          (matmul (DotDims.plain B 128 128) none (truncf .bf16 x0 h16) (truncf .bf16 wt h16) (constant (Mat B 128) .f32 0x00000000#32))
          (matmul (DotDims.plain B 128 128) none (truncf .bf16 x1 h16) (truncf .bf16 wb h16) (constant (Mat B 128) .f32 0x00000000#32)))
          (broadcastTo (Mat B 128) c1 hb))
          (broadcast (Mat B 128) (Scalar.ofBits (F := Ideal) .f32 0x00000000#32))) h16)
        (truncf .bf16 w2 h16) (constant (Mat B 128) .f32 0x00000000#32))
      (broadcastTo (Mat B 128) c2 hb)) (broadcast (Mat B 128) (Scalar.ofBits (F := Ideal) .f32 0x00000000#32)) (ix2 p q)
      = max (outS x0 x1 wt wb c1 w2 c2 p q) 0 := by
  rw [maximumf_apply, body_apply, broadcast_apply]
  show max _ (Ideal.ofBits .f32 0x00000000#32) = _
  rw [Ideal.ofBits_zero_f32]

end Idealize.ShloMosaic.MlpLayer

end
-- ==== Proof.Region0.lean ====
/-
  What the message region leaves in its output array, as one function of the arrays it is entered with.

  The region walks the 800000 edge rows in 200 tiles of 4000. At tile t the body is handed rows 4000·t … 4000·t + 3999 of
  the two gathered inputs and the whole of the two weight halves, the second weight matrix and the two bias rows, and
  writes back rows 4000·t … 4000·t + 3999 of the output. So entry (4000·t + p, q) of the output is the perceptron's split
  spelling at row 4000·t + p of the inputs; the 200 tiles cover every row, and the array ends holding that function.
-/
import proofs.«135095_j60619168416174_1_alg».proof.Proof.Gen.KernelIdeal.Frame
import proofs.«135095_j60619168416174_1_alg».proof.Proof.MlpBody
import Idealize.ShloMosaic.Lib.Pipeline.Value

set_option maxRecDepth 16384

noncomputable section

namespace Cert.KernelIdeal.Msg

open Cert.KernelIdeal Cert.KernelIdeal.Gen Idealize.ShloMosaic Idealize.ShloMosaic.TcCoe Idealize.SL.Sem
open Idealize.ShloMosaic.ValueIdx Idealize.ShloMosaic.MlpLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region is entered with, and the tiles the body is handed, at their literal types -/

abbrev arrRow (c : Dev nD) : FVec Ideal S800000x128 .f32 := V c main_v10
abbrev arrCol (c : Dev nD) : FVec Ideal S800000x128 .f32 := V c main_v17
abbrev arrWt (c : Dev nD) : FVec Ideal S128x128 .f32 := V c main_v18
abbrev arrWb (c : Dev nD) : FVec Ideal S128x128 .f32 := V c main_v19
abbrev arrC1 (c : Dev nD) : FVec Ideal S1x128 .f32 := V c main_v20
abbrev arrW2 (c : Dev nD) : FVec Ideal S128x128 .f32 := V c main_arg4
abbrev arrC2 (c : Dev nD) : FVec Ideal S1x128 .f32 := V c main_v21

abbrev tileRow (c : Dev nD) (t : Fin cfg0.N) : FVec Ideal S4000x128 .f32 := iblk0 V c 0 t
abbrev tileCol (c : Dev nD) (t : Fin cfg0.N) : FVec Ideal S4000x128 .f32 := iblk0 V c 1 t
abbrev tileWt (c : Dev nD) (t : Fin cfg0.N) : FVec Ideal S128x128 .f32 := iblk0 V c 2 t
abbrev tileWb (c : Dev nD) (t : Fin cfg0.N) : FVec Ideal S128x128 .f32 := iblk0 V c 3 t
abbrev tileC1 (c : Dev nD) (t : Fin cfg0.N) : FVec Ideal S1x128 .f32 := iblk0 V c 4 t
abbrev tileW2 (c : Dev nD) (t : Fin cfg0.N) : FVec Ideal S128x128 .f32 := iblk0 V c 5 t
abbrev tileC2 (c : Dev nD) (t : Fin cfg0.N) : FVec Ideal S1x128 .f32 := iblk0 V c 6 t

/-- The messages: the perceptron's split spelling at every edge row, of the arrays the region is entered with. -/
def messages (c : Dev nD) : FVec Ideal S800000x128 .f32 := fun i =>
  outS (arrRow V c) (arrCol V c) (arrWt V c) (arrWb V c) (arrC1 V c) (arrW2 V c) (arrC2 V c) (i 0) (i 1)

/-! ## The body's arithmetic at an entry of the tile -/

theorem pay_apply (x0 x1 : FVec Ideal S4000x128 .f32) (x2 x3 x5 : FVec Ideal S128x128 .f32) (x4 x6 : FVec Ideal S1x128 .f32)
    (p : Fin 4000) (q : Fin 128) :
    k0_pay1 (F := Ideal) x0 x1 x2 x3 x5 x4 x6 (ix2 p q) = outS x0 x1 x2 x3 x4 x5 x6 p q := by
  unfold k0_pay1
  simp only [shapeCast_self]
  exact body_apply 4000 x0 x1 x2 x3 x5 x4 x6 _ _ p q

/-! ## Where each tile sits in its array -/

/-- The printed index maps over the 200 points: the three row-tiled windows are at tile t, column tile 0; the five whole
    windows at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 200 := by
  have h := t.isLt
  have e : cfg0.N = 200 := N_0
  omega

/-- Row p of tile t is row 4000·t + p of the array. -/
def rowOf (t : Fin cfg0.N) (p : Fin 4000) : Fin 800000 := ⟨t.val * 4000 + p.val, by have := t_lt t; have := p.isLt; omega⟩

theorem tileRow_apply (c : Dev nD) (t : Fin cfg0.N) (p : Fin 4000) (j : Fin 128) :
    tileRow V c t (ix2 p j) = arrRow V c (ix2 (rowOf t p) j) := by
  obtain ⟨e0, e1, -⟩ := idx_facts t
  show V c main_v10 (((cfg0.win 0).blk t).view.emb (ix2 p j)) = V c main_v10 (ix2 (rowOf t p) j)
  refine congrArg (V c main_v10) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * j.val = j.val; omega

theorem tileCol_apply (c : Dev nD) (t : Fin cfg0.N) (p : Fin 4000) (j : Fin 128) :
    tileCol V c t (ix2 p j) = arrCol V c (ix2 (rowOf t p) j) := by
  obtain ⟨-, -, e0, e1, -⟩ := idx_facts t
  show V c main_v17 (((cfg0.win 1).blk t).view.emb (ix2 p j)) = V c main_v17 (ix2 (rowOf t p) j)
  refine congrArg (V c main_v17) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * j.val = j.val; omega

theorem tileWt_apply (c : Dev nD) (t : Fin cfg0.N) (j k : Fin 128) : tileWt V c t (ix2 j k) = arrWt V c (ix2 j k) := by
  obtain ⟨-, -, -, -, -, -, e0, e1, -⟩ := idx_facts t
  show V c main_v18 (((cfg0.win 2).blk t).view.emb (ix2 j k)) = V c main_v18 (ix2 j k)
  refine congrArg (V c main_v18) (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

theorem tileWb_apply (c : Dev nD) (t : Fin cfg0.N) (j k : Fin 128) : tileWb V c t (ix2 j k) = arrWb V c (ix2 j k) := by
  obtain ⟨-, -, -, -, -, -, -, -, e0, e1, -⟩ := idx_facts t
  show V c main_v19 (((cfg0.win 3).blk t).view.emb (ix2 j k)) = V c main_v19 (ix2 j k)
  refine congrArg (V c main_v19) (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

theorem tileC1_apply (c : Dev nD) (t : Fin cfg0.N) (k : Fin 128) : tileC1 V c t (ix2 (0 : Fin 1) k) = arrC1 V c (ix2 (0 : Fin 1) k) := by
  obtain ⟨-, -, -, -, -, -, -, -, -, -, e0, e1, -⟩ := idx_facts t
  show V c main_v20 (((cfg0.win 4).blk t).view.emb (ix2 (0 : Fin 1) k)) = V c main_v20 (ix2 (0 : Fin 1) k)
  refine congrArg (V c main_v20) (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

theorem tileW2_apply (c : Dev nD) (t : Fin cfg0.N) (j k : Fin 128) : tileW2 V c t (ix2 j k) = arrW2 V c (ix2 j k) := by
  obtain ⟨-, -, -, -, -, -, -, -, -, -, -, -, e0, e1, -⟩ := idx_facts t
  show V c main_arg4 (((cfg0.win 5).blk t).view.emb (ix2 j k)) = V c main_arg4 (ix2 j k)
  refine congrArg (V c main_arg4) (funext fun a => Fin.ext ?_)
  match a with
  | ⟨0, _⟩ => show win0_5.index t (0 : Fin 2) * 128 + 1 * j.val = j.val; omega
  | ⟨1, _⟩ => show win0_5.index t (1 : Fin 2) * 128 + 1 * k.val = k.val; omega

theorem tileC2_apply (c : Dev nD) (t : Fin cfg0.N) (k : Fin 128) : tileC2 V c t (ix2 (0 : Fin 1) k) = arrC2 V c (ix2 (0 : Fin 1) k) := by
  obtain ⟨-, -, -, -, -, -, -, -, -, -, -, -, -, -, e0, e1⟩ := idx_facts t
  show V c main_v21 (((cfg0.win 6).blk t).view.emb (ix2 (0 : Fin 1) k)) = V c main_v21 (ix2 (0 : Fin 1) k)
  refine congrArg (V c main_v21) (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

/-- Entry (p, q) of the output's tile t is entry (4000·t + p, q) of the output array. -/
theorem out_emb (t : Fin cfg0.N) (p : Fin 4000) (q : Fin 128) :
    ((cfg0.win 7).blk t).view.emb (ix2 p q) = (ix2 (rowOf t p) q : S800000x128.Idx) := by
  obtain ⟨-, -, -, -, e0, e1, -⟩ := idx_facts t
  refine funext fun a => Fin.ext ?_
  match a with
  | ⟨0, _⟩ => show win0_7.index t (0 : Fin 2) * 4000 + 1 * p.val = t.val * 4000 + p.val; omega
  | ⟨1, _⟩ => show win0_7.index t (1 : Fin 2) * 128 + 1 * q.val = q.val; omega

/-! ## What point t writes back -/

theorem flushed_eq (c : Dev nD) (t : Fin cfg0.N) :
    (dat0 V c).flushed 7 t = ((cfg0.win 7).blk t).view.read (Elt Ideal) (messages V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k0_pay1 (F := Ideal) (tileRow V c t) (tileCol V c t) (tileWt V c t) (tileWb V c t) (tileW2 V c t) (tileC1 V c t) (tileC2 V c t) (ix2 p q)
    = messages V c (((cfg0.win 7).blk t).view.emb (ix2 p q))
  rw [out_emb t p q]
  refine (pay_apply (tileRow V c t) (tileCol V c t) (tileWt V c t) (tileWb V c t) (tileW2 V c t) (tileC1 V c t) (tileC2 V c t) p q).trans ?_
  show _ = outS (arrRow V c) (arrCol V c) (arrWt V c) (arrWb V c) (arrC1 V c) (arrW2 V c) (arrC2 V c) (rowOf t p) q
  exact outS_congr _ _ _ _ _ _ _ _ _ _ _ _ _ _ p (rowOf t p) q
    (tileRow_apply V c t p) (tileCol_apply V c t p) (tileWt_apply V c t) (tileWb_apply V c t) (tileW2_apply V c t)
    (tileC1_apply V c t) (tileC2_apply V c t)

/-! ## The tiles cover the array -/

theorem mem_blk (t : Fin cfg0.N) (i : S800000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v22).slice (win0_7.rect t)).set ↔ _
  rw [View.set_slice_whole, Rect.mem_set_unit]
  exact Iff.rfl

theorem cover (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  have hN : (i 0).val / 4000 < cfg0.N := by rw [show cfg0.N = 200 from N_0]; omega
  obtain ⟨-, -, -, -, e0, e1, -⟩ := idx_facts ⟨(i 0).val / 4000, hN⟩
  refine ⟨⟨(i 0).val / 4000, hN⟩, flush0_7 _, ?_⟩
  rw [mem_blk]
  intro a
  match a with
  | ⟨0, _⟩ =>
    show win0_7.index ⟨(i 0).val / 4000, hN⟩ (0 : Fin 2) * 4000 ≤ (i 0).val ∧ (i 0).val < win0_7.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, hN⟩ (1 : Fin 2) * 128 ≤ (i 1).val ∧ (i 1).val < win0_7.index ⟨(i 0).val / 4000, hN⟩ (1 : Fin 2) * 128 + 128
    rw [e1]; omega

/-! ## The array after the region -/

/-- The output array after the region holds the messages. -/
theorem arr_eq (c : Dev nD) : (dat0 V c).arrAt 7 cfg0.N = messages V c :=
  (dat0 V c).arrAt_eq_of_cover 7 (messages V c) (fun t _ => flushed_eq V c t) cover

end Cert.KernelIdeal.Msg

end
-- ==== Proof.Region1.lean ====
/-
  What the update region leaves in its output array, as one function of the arrays it is entered with.

  The region walks the 50000 node rows in 10 tiles of 5000. At tile t the body is handed rows 5000·t … 5000·t + 4999 of the
  node features and of the aggregated messages, and the whole of the two weight halves, the second weight matrix and the
  two bias rows; it writes back the same rows of the output, each entry the perceptron's split spelling at that row under
  one more maximum with zero. The 10 tiles cover every row, and the array ends holding that function.
-/
import proofs.«135095_j60619168416174_1_alg».proof.Proof.Gen.KernelIdeal.Frame
import proofs.«135095_j60619168416174_1_alg».proof.Proof.MlpBody
import Idealize.ShloMosaic.Lib.Pipeline.Value

set_option maxRecDepth 16384

noncomputable section

namespace Cert.KernelIdeal.Upd

open Cert.KernelIdeal Cert.KernelIdeal.Gen Idealize.ShloMosaic Idealize.ShloMosaic.TcCoe Idealize.SL.Sem
open Idealize.ShloMosaic.ValueIdx Idealize.ShloMosaic.MlpLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region is entered with, and the tiles the body is handed, at their literal types -/

abbrev arrX (c : Dev nD) : FVec Ideal S50000x128 .f32 := V c main_arg0
abbrev arrAgg (c : Dev nD) : FVec Ideal S50000x128 .f32 := V c main_v25
abbrev arrWt (c : Dev nD) : FVec Ideal S128x128 .f32 := V c main_v26
abbrev arrWb (c : Dev nD) : FVec Ideal S128x128 .f32 := V c main_v27
abbrev arrC1 (c : Dev nD) : FVec Ideal S1x128 .f32 := V c main_v28
abbrev arrW2 (c : Dev nD) : FVec Ideal S128x128 .f32 := V c main_arg8
abbrev arrC2 (c : Dev nD) : FVec Ideal S1x128 .f32 := V c main_v29

abbrev tileX (c : Dev nD) (t : Fin cfg1.N) : FVec Ideal S5000x128 .f32 := iblk1 V c 0 t
abbrev tileAgg (c : Dev nD) (t : Fin cfg1.N) : FVec Ideal S5000x128 .f32 := iblk1 V c 1 t
abbrev tileWt (c : Dev nD) (t : Fin cfg1.N) : FVec Ideal S128x128 .f32 := iblk1 V c 2 t
abbrev tileWb (c : Dev nD) (t : Fin cfg1.N) : FVec Ideal S128x128 .f32 := iblk1 V c 3 t
abbrev tileC1 (c : Dev nD) (t : Fin cfg1.N) : FVec Ideal S1x128 .f32 := iblk1 V c 4 t
abbrev tileW2 (c : Dev nD) (t : Fin cfg1.N) : FVec Ideal S128x128 .f32 := iblk1 V c 5 t
abbrev tileC2 (c : Dev nD) (t : Fin cfg1.N) : FVec Ideal S1x128 .f32 := iblk1 V c 6 t

/-- The updated features: max(perceptron's split spelling, 0) at every node row, of the arrays the region is entered with. -/
def updated (c : Dev nD) : FVec Ideal S50000x128 .f32 := fun i =>
  max (outS (arrX V c) (arrAgg V c) (arrWt V c) (arrWb V c) (arrC1 V c) (arrW2 V c) (arrC2 V c) (i 0) (i 1)) 0

/-! ## The body's arithmetic at an entry of the tile -/

theorem pay_apply (x0 x1 : FVec Ideal S5000x128 .f32) (x2 x3 x5 : FVec Ideal S128x128 .f32) (x4 x6 : FVec Ideal S1x128 .f32)
    (p : Fin 5000) (q : Fin 128) :
    k1_pay1 (F := Ideal) x0 x1 x2 x3 x5 x4 x6 (ix2 p q) = max (outS x0 x1 x2 x3 x4 x5 x6 p q) 0 := by
  unfold k1_pay1
  simp only [shapeCast_self]
  exact body_relu_apply 5000 x0 x1 x2 x3 x5 x4 x6 _ _ p q

/-! ## Where each tile sits in its array -/

/-- The printed index maps over the 10 points: the three row-tiled windows are at tile t, column tile 0; the five whole
    windows at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem t_lt (t : Fin cfg1.N) : t.val < 10 := by
  have h := t.isLt
  have e : cfg1.N = 10 := N_1
  omega

/-- Row p of tile t is row 5000·t + p of the array. -/
def rowOf (t : Fin cfg1.N) (p : Fin 5000) : Fin 50000 := ⟨t.val * 5000 + p.val, by have := t_lt t; have := p.isLt; omega⟩

theorem tileX_apply (c : Dev nD) (t : Fin cfg1.N) (p : Fin 5000) (j : Fin 128) :
    tileX V c t (ix2 p j) = arrX V c (ix2 (rowOf t p) j) := by
  obtain ⟨e0, e1, -⟩ := idx_facts t
  show V c main_arg0 (((cfg1.win 0).blk t).view.emb (ix2 p j)) = V c main_arg0 (ix2 (rowOf t p) j)
  refine congrArg (V c main_arg0) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * j.val = j.val; omega

theorem tileAgg_apply (c : Dev nD) (t : Fin cfg1.N) (p : Fin 5000) (j : Fin 128) :
    tileAgg V c t (ix2 p j) = arrAgg V c (ix2 (rowOf t p) j) := by
  obtain ⟨-, -, e0, e1, -⟩ := idx_facts t
  show V c main_v25 (((cfg1.win 1).blk t).view.emb (ix2 p j)) = V c main_v25 (ix2 (rowOf t p) j)
  refine congrArg (V c main_v25) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * j.val = j.val; omega

theorem tileWt_apply (c : Dev nD) (t : Fin cfg1.N) (j k : Fin 128) : tileWt V c t (ix2 j k) = arrWt V c (ix2 j k) := by
  obtain ⟨-, -, -, -, -, -, e0, e1, -⟩ := idx_facts t
  show V c main_v26 (((cfg1.win 2).blk t).view.emb (ix2 j k)) = V c main_v26 (ix2 j k)
  refine congrArg (V c main_v26) (funext fun a => Fin.ext ?_)
  match a with
  | ⟨0, _⟩ => show win1_2.index t (0 : Fin 2) * 128 + 1 * j.val = j.val; omega
  | ⟨1, _⟩ => show win1_2.index t (1 : Fin 2) * 128 + 1 * k.val = k.val; omega

theorem tileWb_apply (c : Dev nD) (t : Fin cfg1.N) (j k : Fin 128) : tileWb V c t (ix2 j k) = arrWb V c (ix2 j k) := by
  obtain ⟨-, -, -, -, -, -, -, -, e0, e1, -⟩ := idx_facts t
  show V c main_v27 (((cfg1.win 3).blk t).view.emb (ix2 j k)) = V c main_v27 (ix2 j k)
  refine congrArg (V c main_v27) (funext fun a => Fin.ext ?_)
  match a with
  | ⟨0, _⟩ => show win1_3.index t (0 : Fin 2) * 128 + 1 * j.val = j.val; omega
  | ⟨1, _⟩ => show win1_3.index t (1 : Fin 2) * 128 + 1 * k.val = k.val; omega

theorem tileC1_apply (c : Dev nD) (t : Fin cfg1.N) (k : Fin 128) : tileC1 V c t (ix2 (0 : Fin 1) k) = arrC1 V c (ix2 (0 : Fin 1) k) := by
  obtain ⟨-, -, -, -, -, -, -, -, -, -, e0, e1, -⟩ := idx_facts t
  show V c main_v28 (((cfg1.win 4).blk t).view.emb (ix2 (0 : Fin 1) k)) = V c main_v28 (ix2 (0 : Fin 1) k)
  refine congrArg (V c main_v28) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

theorem tileW2_apply (c : Dev nD) (t : Fin cfg1.N) (j k : Fin 128) : tileW2 V c t (ix2 j k) = arrW2 V c (ix2 j k) := by
  obtain ⟨-, -, -, -, -, -, -, -, -, -, -, -, e0, e1, -⟩ := idx_facts t
  show V c main_arg8 (((cfg1.win 5).blk t).view.emb (ix2 j k)) = V c main_arg8 (ix2 j k)
  refine congrArg (V c main_arg8) (funext fun a => Fin.ext ?_)
  match a with
  | ⟨0, _⟩ => show win1_5.index t (0 : Fin 2) * 128 + 1 * j.val = j.val; omega
  | ⟨1, _⟩ => show win1_5.index t (1 : Fin 2) * 128 + 1 * k.val = k.val; omega

theorem tileC2_apply (c : Dev nD) (t : Fin cfg1.N) (k : Fin 128) : tileC2 V c t (ix2 (0 : Fin 1) k) = arrC2 V c (ix2 (0 : Fin 1) k) := by
  obtain ⟨-, -, -, -, -, -, -, -, -, -, -, -, -, -, e0, e1⟩ := idx_facts t
  show V c main_v29 (((cfg1.win 6).blk t).view.emb (ix2 (0 : Fin 1) k)) = V c main_v29 (ix2 (0 : Fin 1) k)
  refine congrArg (V c main_v29) (funext fun a => Fin.ext ?_)
  match a with
  | ⟨0, _⟩ => show win1_6.index t (0 : Fin 2) * 1 + 1 * 0 = 0; omega
  | ⟨1, _⟩ => show win1_6.index t (1 : Fin 2) * 128 + 1 * k.val = k.val; omega

/-- Entry (p, q) of the output's tile t is entry (5000·t + p, q) of the output array. -/
theorem out_emb (t : Fin cfg1.N) (p : Fin 5000) (q : Fin 128) :
    ((cfg1.win 7).blk t).view.emb (ix2 p q) = (ix2 (rowOf t p) q : S50000x128.Idx) := by
  obtain ⟨-, -, -, -, e0, e1, -⟩ := idx_facts t
  refine funext fun a => Fin.ext ?_
  match a with
  | ⟨0, _⟩ => show win1_7.index t (0 : Fin 2) * 5000 + 1 * p.val = t.val * 5000 + p.val; omega
  | ⟨1, _⟩ => show win1_7.index t (1 : Fin 2) * 128 + 1 * q.val = q.val; omega

/-! ## What point t writes back -/

theorem flushed_eq (c : Dev nD) (t : Fin cfg1.N) :
    (dat1 V c).flushed 7 t = ((cfg1.win 7).blk t).view.read (Elt Ideal) (updated V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (tileX V c t) (tileAgg V c t) (tileWt V c t) (tileWb V c t) (tileW2 V c t) (tileC1 V c t) (tileC2 V c t) (ix2 p q)
    = updated V c (((cfg1.win 7).blk t).view.emb (ix2 p q))
  rw [out_emb t p q]
  refine (pay_apply (tileX V c t) (tileAgg V c t) (tileWt V c t) (tileWb V c t) (tileW2 V c t) (tileC1 V c t) (tileC2 V c t) p q).trans ?_
  show _ = max (outS (arrX V c) (arrAgg V c) (arrWt V c) (arrWb V c) (arrC1 V c) (arrW2 V c) (arrC2 V c) (rowOf t p) q) 0
  exact congrArg (max · 0) (outS_congr _ _ _ _ _ _ _ _ _ _ _ _ _ _ p (rowOf t p) q
    (tileX_apply V c t p) (tileAgg_apply V c t p) (tileWt_apply V c t) (tileWb_apply V c t) (tileW2_apply V c t)
    (tileC1_apply V c t) (tileC2_apply V c t))

/-! ## The tiles cover the array -/

theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v30).slice (win1_7.rect t)).set ↔ _
  rw [View.set_slice_whole, Rect.mem_set_unit]
  exact Iff.rfl

theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : (i 0).val / 5000 < cfg1.N := by rw [show cfg1.N = 10 from N_1]; omega
  obtain ⟨-, -, -, -, e0, e1, -⟩ := idx_facts ⟨(i 0).val / 5000, hN⟩
  refine ⟨⟨(i 0).val / 5000, hN⟩, flush1_7 _, ?_⟩
  rw [mem_blk]
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hN⟩ (1 : Fin 2) * 128 ≤ (i 1).val ∧ (i 1).val < win1_7.index ⟨(i 0).val / 5000, hN⟩ (1 : Fin 2) * 128 + 128
    rw [e1]; omega

/-! ## The array after the region -/

/-- The output array after the region holds the updated features. -/
theorem arr_eq (c : Dev nD) : (dat1 V c).arrAt 7 cfg1.N = updated V c :=
  (dat1 V c).arrAt_eq_of_cover 7 (updated V c) (fun t _ => flushed_eq V c t) cover

end Cert.KernelIdeal.Upd

end
-- ==== Proof.KernelValue.lean ====
/-
  The idealized kernel's result array as one function of its arguments.

  The result is the update region's output. That region is entered with the node features (an argument, untouched on
  the way), the aggregated messages (the scatter-add, into zeros at the destination indices, of the message region's
  output), the two halves of the update weights (row slices of an argument) and the update biases as rows (reshapes of
  arguments). The message region in turn is entered with the two gathered endpoint arrays, the two halves of the message
  weights and the message biases as rows. Reading each region's output by its closed form and each host-written buffer
  by the operations that wrote it, the result is one round of message passing in the joined spelling. The gathers, the
  destination indices and the zero array are the same operations as the reference applies: they are named here by the
  reference's own stage terms, and nothing looks inside them.
-/
import proofs.«135095_j60619168416174_1_alg».proof.Proof.Gen.KernelIdeal.Frame
import proofs.«135095_j60619168416174_1_alg».proof.Proof.Gen.ReferenceIdeal.Read
import proofs.«135095_j60619168416174_1_alg».proof.Proof.Region0
import proofs.«135095_j60619168416174_1_alg».proof.Proof.Region1
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx Idealize.ShloMosaic.MlpLayer

variable (m : (ℓ : Loc nD τ sig) → Buf (Elt Ideal) ℓ) (ρ : Dev nD → PrngReg)

/-! ## The arguments, at their literal types -/

abbrev X0 (c : Dev nD) : FVec Ideal S50000x128 .f32 := m ((c : Thread nD τ).loc main_arg0)
abbrev X1 (c : Dev nD) : IVec S2x800000 32 := m ((c : Thread nD τ).loc main_arg1)
abbrev X2 (c : Dev nD) : FVec Ideal S256x128 .f32 := m ((c : Thread nD τ).loc main_arg2)
abbrev X3 (c : Dev nD) : FVec Ideal S128 .f32 := m ((c : Thread nD τ).loc main_arg3)
abbrev X4 (c : Dev nD) : FVec Ideal S128x128 .f32 := m ((c : Thread nD τ).loc main_arg4)
abbrev X5 (c : Dev nD) : FVec Ideal S128 .f32 := m ((c : Thread nD τ).loc main_arg5)
abbrev X6 (c : Dev nD) : FVec Ideal S256x128 .f32 := m ((c : Thread nD τ).loc main_arg6)
abbrev X7 (c : Dev nD) : FVec Ideal S128 .f32 := m ((c : Thread nD τ).loc main_arg7)
abbrev X8 (c : Dev nD) : FVec Ideal S128x128 .f32 := m ((c : Thread nD τ).loc main_arg8)
abbrev X9 (c : Dev nD) : FVec Ideal S128 .f32 := m ((c : Thread nD τ).loc main_arg9)

/-! ## What the message region is entered with: the first host stretch, from the launch memory -/

theorem V1_v10 (c : Dev nD) : V1 m ρ c main_v10 = Cert.ReferenceIdeal.Read.val_main_v10 (F := Ideal) (X0 m c) (X1 m c) := by
  show StableHlo.after hostOps0 (W0 m ρ c) (Proc.devRef .tc main_v10) = _
  after_results <;> rfl
theorem V1_v17 (c : Dev nD) : V1 m ρ c main_v17 = Cert.ReferenceIdeal.Read.val_main_v17 (F := Ideal) (X0 m c) (X1 m c) := by
  show StableHlo.after hostOps0 (W0 m ρ c) (Proc.devRef .tc main_v17) = _
  after_results <;> rfl
theorem V1_v18 (c : Dev nD) : V1 m ρ c main_v18 = extractStridedSlice S128x128 ![0, 0] (X2 m c) slices_S256x128_S128x128_0_0 := by
  show StableHlo.after hostOps0 (W0 m ρ c) (Proc.devRef .tc main_v18) = _
  after_results <;> rfl
theorem V1_v19 (c : Dev nD) : V1 m ρ c main_v19 = extractStridedSlice S128x128 ![128, 0] (X2 m c) slices_S256x128_S128x128_128_0 := by
  show StableHlo.after hostOps0 (W0 m ρ c) (Proc.devRef .tc main_v19) = _
  after_results <;> rfl
theorem V1_v20 (c : Dev nD) : V1 m ρ c main_v20 = shapeCast S1x128 (X3 m c) shapeCasts_S128_S1x128 := by
  show StableHlo.after hostOps0 (W0 m ρ c) (Proc.devRef .tc main_v20) = _
  after_results <;> rfl
theorem V1_arg4 (c : Dev nD) : V1 m ρ c main_arg4 = X4 m c := by
  show StableHlo.after hostOps0 (W0 m ρ c) (Proc.devRef .tc main_arg4) = _
  after_results <;> rfl
theorem V1_v21 (c : Dev nD) : V1 m ρ c main_v21 = shapeCast S1x128 (X5 m c) shapeCasts_S128_S1x128 := by
  show StableHlo.after hostOps0 (W0 m ρ c) (Proc.devRef .tc main_v21) = _
  after_results <;> rfl

/-- The messages in the joined spelling, of the arguments and the two gathered arrays. -/
theorem messages_eq (c : Dev nD) :
    Msg.messages (V1 m ρ) c = fun e => outC (Cert.ReferenceIdeal.Read.val_main_v10 (F := Ideal) (X0 m c) (X1 m c))
      (Cert.ReferenceIdeal.Read.val_main_v17 (F := Ideal) (X0 m c) (X1 m c)) (X2 m c) (X3 m c) (X4 m c) (X5 m c) (e 0) (e 1) := by
  funext e
  unfold Msg.messages
  show outS (V1 m ρ c main_v10) (V1 m ρ c main_v17) (V1 m ρ c main_v18) (V1 m ρ c main_v19) (V1 m ρ c main_v20) (V1 m ρ c main_arg4)
    (V1 m ρ c main_v21) (e 0) (e 1) = _
  rw [V1_v10, V1_v17, V1_v18, V1_v19, V1_v20, V1_arg4, V1_v21]
  exact outS_slices _ _ _ _ _ _ _ _ _ (e 0) (e 1)

/-! ## Buffers the message region does not write, read at its exit -/

theorem W1_arg0 (c : Dev nD) : W1 m ρ c (Proc.devRef .tc main_arg0) = X0 m c := by
  show StableHlo.after hostOps0 (W0 m ρ c) (Proc.devRef .tc main_arg0) = _
  after_results <;> rfl
theorem W1_v3 (c : Dev nD) : W1 m ρ c (Proc.devRef .tc main_v3) = Cert.ReferenceIdeal.Read.val_main_v3 (F := Ideal) (X1 m c) := by
  show StableHlo.after hostOps0 (W0 m ρ c) (Proc.devRef .tc main_v3) = _
  after_results <;> rfl
theorem W1_arg6 (c : Dev nD) : W1 m ρ c (Proc.devRef .tc main_arg6) = X6 m c := by
  show StableHlo.after hostOps0 (W0 m ρ c) (Proc.devRef .tc main_arg6) = _
  after_results <;> rfl
theorem W1_arg7 (c : Dev nD) : W1 m ρ c (Proc.devRef .tc main_arg7) = X7 m c := by
  show StableHlo.after hostOps0 (W0 m ρ c) (Proc.devRef .tc main_arg7) = _
  after_results <;> rfl
theorem W1_arg8 (c : Dev nD) : W1 m ρ c (Proc.devRef .tc main_arg8) = X8 m c := by
  show StableHlo.after hostOps0 (W0 m ρ c) (Proc.devRef .tc main_arg8) = _
  after_results <;> rfl
theorem W1_arg9 (c : Dev nD) : W1 m ρ c (Proc.devRef .tc main_arg9) = X9 m c := by
  show StableHlo.after hostOps0 (W0 m ρ c) (Proc.devRef .tc main_arg9) = _
  after_results <;> rfl

theorem W2_arg0 (c : Dev nD) : W2 m ρ c (Proc.devRef .tc main_arg0) = X0 m c := (W2_of_ne m ρ c main_arg0 (by decide)).trans (W1_arg0 m ρ c)
theorem W2_v3 (c : Dev nD) : W2 m ρ c (Proc.devRef .tc main_v3) = Cert.ReferenceIdeal.Read.val_main_v3 (F := Ideal) (X1 m c) :=
  (W2_of_ne m ρ c main_v3 (by decide)).trans (W1_v3 m ρ c)
theorem W2_arg6 (c : Dev nD) : W2 m ρ c (Proc.devRef .tc main_arg6) = X6 m c := (W2_of_ne m ρ c main_arg6 (by decide)).trans (W1_arg6 m ρ c)
theorem W2_arg7 (c : Dev nD) : W2 m ρ c (Proc.devRef .tc main_arg7) = X7 m c := (W2_of_ne m ρ c main_arg7 (by decide)).trans (W1_arg7 m ρ c)
theorem W2_arg8 (c : Dev nD) : W2 m ρ c (Proc.devRef .tc main_arg8) = X8 m c := (W2_of_ne m ρ c main_arg8 (by decide)).trans (W1_arg8 m ρ c)
theorem W2_arg9 (c : Dev nD) : W2 m ρ c (Proc.devRef .tc main_arg9) = X9 m c := (W2_of_ne m ρ c main_arg9 (by decide)).trans (W1_arg9 m ρ c)

/-- The message region's output at its exit holds the messages. -/
theorem W2_v22 (c : Dev nD) : W2 m ρ c (Proc.devRef .tc main_v22) = Msg.messages (V1 m ρ) c :=
  (W2_arr m ρ c 7).trans (Msg.arr_eq (V1 m ρ) c)

/-! ## What the update region is entered with: the second host stretch, from the message region's exit -/

theorem V3_arg0 (c : Dev nD) : V3 m ρ c main_arg0 = X0 m c := by
  show StableHlo.after hostOps1 (W2 m ρ c) (Proc.devRef .tc main_arg0) = _
  after_results
  exact W2_arg0 m ρ c
/-- The aggregated messages: the scatter-add of the messages into zeros at the destination indices. -/
theorem V3_v25 (c : Dev nD) : V3 m ρ c main_v25
    = Host.scatterAdd (F := Ideal) (φ := .f32) Cert.ReferenceIdeal.scatter_S50000x128_S800000x1_S800000x128_1_0_0_1 (Cert.ReferenceIdeal.Read.val_main_v28 (F := Ideal))
        (Cert.ReferenceIdeal.Read.val_main_v29 (F := Ideal) (X1 m c)) (Msg.messages (V1 m ρ) c) := by
  show StableHlo.after hostOps1 (W2 m ρ c) (Proc.devRef .tc main_v25) = _
  after_results
  rw [W2_v22, W2_v3]
  rfl
theorem V3_v26 (c : Dev nD) : V3 m ρ c main_v26 = extractStridedSlice S128x128 ![0, 0] (X6 m c) slices_S256x128_S128x128_0_0 := by
  show StableHlo.after hostOps1 (W2 m ρ c) (Proc.devRef .tc main_v26) = _
  after_results
  rw [W2_arg6]
theorem V3_v27 (c : Dev nD) : V3 m ρ c main_v27 = extractStridedSlice S128x128 ![128, 0] (X6 m c) slices_S256x128_S128x128_128_0 := by
  show StableHlo.after hostOps1 (W2 m ρ c) (Proc.devRef .tc main_v27) = _
  after_results
  rw [W2_arg6]
theorem V3_v28 (c : Dev nD) : V3 m ρ c main_v28 = shapeCast S1x128 (X7 m c) shapeCasts_S128_S1x128 := by
  show StableHlo.after hostOps1 (W2 m ρ c) (Proc.devRef .tc main_v28) = _
  after_results
  rw [W2_arg7]
  rfl
theorem V3_arg8 (c : Dev nD) : V3 m ρ c main_arg8 = X8 m c := by
  show StableHlo.after hostOps1 (W2 m ρ c) (Proc.devRef .tc main_arg8) = _
  after_results
  exact W2_arg8 m ρ c
theorem V3_v29 (c : Dev nD) : V3 m ρ c main_v29 = shapeCast S1x128 (X9 m c) shapeCasts_S128_S1x128 := by
  show StableHlo.after hostOps1 (W2 m ρ c) (Proc.devRef .tc main_v29) = _
  after_results
  rw [W2_arg9]
  rfl

/-! ## The result -/

/-- The result array at the last boundary is one round of message passing over the arguments. -/
theorem result_eq (c : Dev nD) :
    W4 m ρ c (Proc.devRef .tc main_v30)
      = gnn (Cert.ReferenceIdeal.Read.val_main_v10 (F := Ideal) (X0 m c) (X1 m c)) (Cert.ReferenceIdeal.Read.val_main_v17 (F := Ideal) (X0 m c) (X1 m c))
          (fun u => Host.scatterAdd (F := Ideal) (φ := .f32) Cert.ReferenceIdeal.scatter_S50000x128_S800000x1_S800000x128_1_0_0_1 (Cert.ReferenceIdeal.Read.val_main_v28 (F := Ideal))
            (Cert.ReferenceIdeal.Read.val_main_v29 (F := Ideal) (X1 m c)) u)
          (X0 m c) (X2 m c) (X3 m c) (X4 m c) (X5 m c) (X6 m c) (X7 m c) (X8 m c) (X9 m c) := by
  refine ((W4_arr m ρ c 7).trans (Upd.arr_eq (V3 m ρ) c)).trans ?_
  funext i
  unfold Upd.updated gnn
  show max (outS (V3 m ρ c main_arg0) (V3 m ρ c main_v25) (V3 m ρ c main_v26) (V3 m ρ c main_v27) (V3 m ρ c main_v28) (V3 m ρ c main_arg8)
    (V3 m ρ c main_v29) (i 0) (i 1)) 0 = _
  rw [V3_arg0, V3_v25, V3_v26, V3_v27, V3_v28, V3_arg8, V3_v29, messages_eq]
  exact congrArg (max · 0) (outS_slices _ _ _ _ _ _ _ _ _ (i 0) (i 1))

end Cert.KernelIdeal.Val

end
-- ==== Proof.LibPlainHostDot.lean ====
/-
  A plain host matrix product read at an entry.

  For the dimension numbers `⟨[1], [0], [0], [1], [], []⟩` (an M×K operand times a K×N operand, no batch axis), the host's
  `dot_general` has, at entry (p, q), the value Σ_k lhs (p, k) · rhs (k, q) on the extended reals: no accumulator, no rounding
  and no order of summation is left in it. The statement is generic in the three extents and in the operands' float
  formats; a printed dimension record with these six lists IS `DotDims.plain M K N` (its well-formedness proof is a
  proposition), so the lemma applies to it as it stands. It is the host-side companion of the kernel-side product into a
  zero accumulator, and is proved over the same four coordinate lemmas.
-/
import proofs.«135095_j60619168416174_1_alg».proof.Proof.LibPlainDot

namespace Idealize.ShloMosaic.PlainDot

open Idealize.ShloMosaic Idealize.ShloMosaic.ValueIdx

/-- A plain M×K by K×N host product, at entry (p, q), is Σ_k lhs (p, k) · rhs (k, q). -/
theorem dotGeneral_plain_apply {φ₁ φ₂ : FTy} (M K N : Nat) (lhs : FVec Ideal ⟨2, ![M, K]⟩ φ₁) (rhs : FVec Ideal ⟨2, ![K, N]⟩ φ₂)
    (p : Fin M) (q : Fin N) :
    FloatOps.dotGeneral (DotDims.plain M K N) none .single lhs rhs (ix2 p q) = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.MlpRef.lean ====
/-
  The perceptron as a plain program spells it, at an entry.

  The two inputs are joined along the feature axis into an R×256 array, multiplied by the whole 256×128 first weight
  matrix, the bias vector is made a row and then broadcast down the rows and added, the maximum with a broadcast zero
  is taken, the result is multiplied by the second weight matrix and the second bias is added the same way. At entry
  (p, q) that is the joined spelling of the perceptron: a product of matrices at an entry is the sum over the shared
  axis, and the joined array's row p is (a(p,·) ++ b(p,·)).
-/
import proofs.«135095_j60619168416174_1_alg».proof.Proof.LibPlainHostDot
import proofs.«135095_j60619168416174_1_alg».proof.Proof.MlpLayer

noncomputable section

open scoped BigOperators

namespace Idealize.ShloMosaic.MlpLayer

open Idealize.ShloMosaic Idealize.ShloMosaic.ValueIdx

variable {R : Nat}

/-- Row p of the two inputs joined along the feature axis is (a(p,·) ++ b(p,·)). -/
theorem concat_apply (a b : (Mat R 128).Idx → EReal) (h : Shape.Concatenates [Mat R 128, Mat R 128] (Mat R 256) 1) (p : Fin R) (j : Fin 256) :
    concatenate (Mat R 256) 1 [⟨Mat R 128, a⟩, ⟨Mat R 128, b⟩] h (ix2 p j) = cat a b p j := by
  unfold cat
  split
  · next hj =>
    exact concatenate_pair_apply_left (1 : Fin (Mat R 256).rank) a b h (ix2 p j) rfl (ix2 p ⟨j.val, hj⟩)
      (fun ax => by match ax with | ⟨0, _⟩ => rfl | ⟨1, _⟩ => rfl)
  · next hj =>
    exact concatenate_pair_apply_right (1 : Fin (Mat R 256).rank) a b h (ix2 p j) rfl rfl (ix2 p ⟨j.val - 128, by have := j.isLt; omega⟩)
      (fun ax hax => by match ax with | ⟨0, _⟩ => rfl | ⟨1, _⟩ => exact absurd rfl hax)
      (by show j.val - 128 + 128 = j.val; omega)

/-- A length-128 vector made a row and broadcast down R rows reads, at (p, k), the vector at k. -/
theorem bias_apply (c : (Vc 128).Idx → EReal) (h1 : (Vc 128).BroadcastsInDim (Mat 1 128) ![1])
    (h2 : (Mat 1 128).BroadcastsInDim (Mat R 128) ![0, 1]) (p : Fin R) (k : Fin 128) :
    broadcastInDim (Mat R 128) ![0, 1] h2 (broadcastInDim (Mat 1 128) ![1] h1 c) (ix2 p k) = c (ix1 k) := by
  refine (broadcastInDim_apply _ h2 _ (ix2 p k) (ix2 (0 : Fin 1) k) (fun a => by
    match a with
    | ⟨0, _⟩ => show 0 = if (1 : Nat) = 1 then 0 else p.val; rw [if_pos rfl]
    | ⟨1, _⟩ => show k.val = if (128 : Nat) = 1 then 0 else k.val; rw [if_neg (by decide)])).trans ?_
  exact broadcastInDim_apply _ h1 c (ix2 (0 : Fin 1) k) (ix1 k) (fun a => by
    match a with
    | ⟨0, _⟩ => show k.val = if (128 : Nat) = 1 then 0 else k.val; rw [if_neg (by decide)])

/-- The zero word broadcast to a matrix reads the extended real 0 everywhere. -/
theorem zero_apply (h0 : (⟨0, ![]⟩ : Shape).BroadcastsInDim (Mat R 128) ![]) (i : (Mat R 128).Idx) :
    broadcastInDim (Mat R 128) ![] h0 (constant (F := Ideal) ⟨0, ![]⟩ .f32 0x00000000#32) i = 0 := by
  refine (broadcastInDim_apply _ h0 _ i ix0 (fun a => a.elim0)).trans ?_
  rw [constant_apply, Ideal.ofBits_zero_f32]

/-- The plain program's perceptron at entry (p, q) is the joined spelling. -/
theorem refLayer_apply (a b : FVec Ideal (Mat R 128) .f32) (w1 : FVec Ideal (Mat 256 128) .f32) (c1 c2 : FVec Ideal (Vc 128) .f32)
    (w2 : FVec Ideal (Mat 128 128) .f32) (hcat : Shape.Concatenates [Mat R 128, Mat R 128] (Mat R 256) 1)
    (h1 : (Vc 128).BroadcastsInDim (Mat 1 128) ![1]) (h2 : (Mat 1 128).BroadcastsInDim (Mat R 128) ![0, 1])
    (h0 : (⟨0, ![]⟩ : Shape).BroadcastsInDim (Mat R 128) ![]) (p : Fin R) (q : Fin 128) :
    addf (Host.dotGeneral (DotDims.plain R 128 128) none
        (maximumf (addf (Host.dotGeneral (DotDims.plain R 256 128) none (concatenate (Mat R 256) 1 [⟨Mat R 128, a⟩, ⟨Mat R 128, b⟩] hcat) w1)
            (broadcastInDim (Mat R 128) ![0, 1] h2 (broadcastInDim (Mat 1 128) ![1] h1 c1)))
          (broadcastInDim (Mat R 128) ![] h0 (constant (F := Ideal) ⟨0, ![]⟩ .f32 0x00000000#32)))
        w2)
      (broadcastInDim (Mat R 128) ![0, 1] h2 (broadcastInDim (Mat 1 128) ![1] h1 c2)) (ix2 p q)
      = outC a b w1 c1 w2 c2 p q := by
  rw [addf_apply, bias_apply]
  show FloatOps.dotGeneral _ none .single _ _ (ix2 p q) + _ = _
  rw [PlainDot.dotGeneral_plain_apply]
  unfold outC
  refine congrArg (· + c2 (ix1 q)) (Finset.sum_congr rfl fun k _ => ?_)
  refine congrArg (· * w2 (ix2 k q)) ?_
  rw [maximumf_apply, addf_apply, bias_apply, zero_apply]
  show max (FloatOps.dotGeneral _ none .single _ _ (ix2 p k) + _) 0 = _
  rw [PlainDot.dotGeneral_plain_apply]
  unfold hiddenC
  refine congrArg (fun s => max (s + c1 (ix1 k)) 0) (Finset.sum_congr rfl fun j _ => ?_)
  rw [concat_apply]

/-- The same under one more maximum with a broadcast zero. -/
theorem refLayer_relu_apply (a b : FVec Ideal (Mat R 128) .f32) (w1 : FVec Ideal (Mat 256 128) .f32) (c1 c2 : FVec Ideal (Vc 128) .f32)
    (w2 : FVec Ideal (Mat 128 128) .f32) (hcat : Shape.Concatenates [Mat R 128, Mat R 128] (Mat R 256) 1)
    (h1 : (Vc 128).BroadcastsInDim (Mat 1 128) ![1]) (h2 : (Mat 1 128).BroadcastsInDim (Mat R 128) ![0, 1])
    (h0 : (⟨0, ![]⟩ : Shape).BroadcastsInDim (Mat R 128) ![]) (p : Fin R) (q : Fin 128) :
    maximumf (addf (Host.dotGeneral (DotDims.plain R 128 128) none
        (maximumf (addf (Host.dotGeneral (DotDims.plain R 256 128) none (concatenate (Mat R 256) 1 [⟨Mat R 128, a⟩, ⟨Mat R 128, b⟩] hcat) w1)
            (broadcastInDim (Mat R 128) ![0, 1] h2 (broadcastInDim (Mat 1 128) ![1] h1 c1)))
          (broadcastInDim (Mat R 128) ![] h0 (constant (F := Ideal) ⟨0, ![]⟩ .f32 0x00000000#32)))
        w2)
      (broadcastInDim (Mat R 128) ![0, 1] h2 (broadcastInDim (Mat 1 128) ![1] h1 c2)))
      (broadcastInDim (Mat R 128) ![] h0 (constant (F := Ideal) ⟨0, ![]⟩ .f32 0x00000000#32)) (ix2 p q)
      = max (outC a b w1 c1 w2 c2 p q) 0 := by
  rw [maximumf_apply, refLayer_apply, zero_apply]

end Idealize.ShloMosaic.MlpLayer

end
-- ==== Proof.RefValue.lean ====
/-
  The idealized reference's result as one round of message passing.

  The reference gathers the two endpoint rows of every edge, joins them, applies the message perceptron as plain matrix
  products, adds the messages up per destination node (a scatter-add into zeros), joins each node's features with its
  sum and applies the update perceptron, then a maximum with zero. Stage by stage that is the joined spelling of the
  perceptron twice, around the scatter: the same function of the arguments the kernel's result was read as. The gathers
  and the scatter stay closed: both programs apply the same ones.
-/
import proofs.«135095_j60619168416174_1_alg».proof.Proof.Gen.ReferenceIdeal.Run
import proofs.«135095_j60619168416174_1_alg».proof.Proof.Gen.ReferenceIdeal.Read
import proofs.«135095_j60619168416174_1_alg».proof.Proof.MlpRef

set_option maxRecDepth 16384

noncomputable section

namespace Cert.ReferenceIdeal.RefValue

open Cert.ReferenceIdeal Cert.ReferenceIdeal.Read Idealize.ShloMosaic Idealize.ShloMosaic.TcCoe Idealize.SL.Sem
open Idealize.ShloMosaic.ValueIdx Idealize.ShloMosaic.MlpLayer

/-- The reference's messages are the joined spelling of the message perceptron at every edge row. -/
theorem messages_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v27 (F := Ideal) x0 x1 x2 x3 x4 x5
      = fun e => outC (val_main_v10 (F := Ideal) x0 x1) (val_main_v17 (F := Ideal) x0 x1) x2 x3 x4 x5 (e 0) (e 1) := by
  funext e
  obtain ⟨p, q, rfl⟩ : ∃ (p : Fin 800000) (q : Fin 128), e = ix2 p q := ⟨e 0, e 1, eq_ix2 e⟩
  unfold val_main_v27 val_main_v24 val_main_v23 val_main_v22 val_main_v19 val_main_v18 val_main_v21 val_main_v20 val_main_v26 val_main_v25
    val_main_call0_v0 val_main_call0_cst
  exact refLayer_apply (val_main_v10 (F := Ideal) x0 x1) (val_main_v17 (F := Ideal) x0 x1) x2 x3 x5 x4 _ _ _ _ p q

/-- The reference's result is one round of message passing over its arguments. -/
theorem result_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v41 (F := Ideal) x0 x1 x2 x3 x4 x5 x6 x7 x8 x9
      = gnn (val_main_v10 (F := Ideal) x0 x1) (val_main_v17 (F := Ideal) x0 x1)
          (fun u => Host.scatterAdd (F := Ideal) (φ := .f32) scatter_S50000x128_S800000x1_S800000x128_1_0_0_1 (val_main_v28 (F := Ideal))
            (val_main_v29 (F := Ideal) x1) u)
          x0 x2 x3 x4 x5 x6 x7 x8 x9 := by
  funext i
  obtain ⟨p, q, rfl⟩ : ∃ (p : Fin 50000) (q : Fin 128), i = ix2 p q := ⟨i 0, i 1, eq_ix2 i⟩
  unfold gnn val_main_v41 val_main_v40 val_main_v37 val_main_v36 val_main_v35 val_main_v32 val_main_v31 val_main_v34 val_main_v33 val_main_v39
    val_main_v38 val_main_call1_v0 val_main_call1_cst val_main_call2_v0 val_main_call2_cst val_main_v30
  rw [messages_eq]
  exact refLayer_relu_apply x0 _ x6 x7 x9 x8 _ _ _ _ p q

end Cert.ReferenceIdeal.RefValue

end
-- ==== Proof.lean ====
/-
  One round of message passing on a graph: the tiled kernel against the plain reference, over the extended reals.

  For node features x (50000 × 128), edges (row, col) (2 × 800000) and two perceptrons (message and update), both programs
  compute

      messages(e)  = MLPₘ(x[row e] ++ x[col e])                      for every edge e,
      agg(n)       = Σ_{e : col e = n} messages(e)                     (a scatter-add into zeros),
      result(n)    = max(MLPᵤ(x[n] ++ agg(n)), 0)                      for every node n,

  where MLP(v) = max(v·W₁ + β₁, 0)·W₂ + β₂. The reference joins the two inputs of each perceptron and multiplies by the whole
  256×128 matrix W₁. The kernel multiplies the two inputs by the top and the bottom half of W₁ separately and adds, in two
  pipelined regions (4000 edge rows, then 5000 node rows at a time) with the gathers and the scatter-add between them on
  the host, its matrix operands narrowed to bf16 — the identity on the extended reals. A sum over 256 = 128 + 128 indices
  is the sum over the first 128 plus the sum over the last 128, so the two spellings of each perceptron agree entry by
  entry; that uses only that + is commutative and associative on the extended reals, so the precondition (finite inputs)
  is never opened. The gathers, the destination indices and the scatter-add are the same operations in both programs and
  are carried as they stand.

  The three frames: the two kernels' are the generated frame certificates; the reference's is its generated run with the
  result dropped. The idealization rewrote nothing, so the fourth conjunct is True. For the fifth, the idealized kernel's
  run is read with its result named (the segments' launch, the result array at the last boundary's contents), that array
  is read back region by region and host stretch by host stretch to one round of message passing over the arguments,
  and the reference's generated run term is read stage by stage to the same function.
-/
import proofs.«135095_j60619168416174_1_alg».proof.Defs
import proofs.«135095_j60619168416174_1_alg».proof.Proof.Gen.Kernel
import proofs.«135095_j60619168416174_1_alg».proof.Proof.Gen.Kernel.Skeleton
import proofs.«135095_j60619168416174_1_alg».proof.Proof.Gen.Kernel.Launch
import proofs.«135095_j60619168416174_1_alg».proof.Proof.Gen.Kernel.Points
import proofs.«135095_j60619168416174_1_alg».proof.Proof.Gen.Kernel.Frame
import proofs.«135095_j60619168416174_1_alg».proof.Proof.Gen.KernelIdeal
import proofs.«135095_j60619168416174_1_alg».proof.Proof.Gen.KernelIdeal.Skeleton
import proofs.«135095_j60619168416174_1_alg».proof.Proof.Gen.KernelIdeal.Launch
import proofs.«135095_j60619168416174_1_alg».proof.Proof.Gen.KernelIdeal.Points
import proofs.«135095_j60619168416174_1_alg».proof.Proof.Gen.KernelIdeal.Frame
import proofs.«135095_j60619168416174_1_alg».proof.Proof.Gen.ReferenceIdeal
import proofs.«135095_j60619168416174_1_alg».proof.Proof.Gen.ReferenceIdeal.Run
import proofs.«135095_j60619168416174_1_alg».proof.Proof.Gen.ReferenceIdeal.Read
import proofs.«135095_j60619168416174_1_alg».proof.Proof.Gen.Pre_finite_inputs
import proofs.«135095_j60619168416174_1_alg».proof.Proof.KernelRun
import proofs.«135095_j60619168416174_1_alg».proof.Proof.KernelValue
import proofs.«135095_j60619168416174_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments: its generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The idealized reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: one round of message
    passing over the arguments, the kernel's by its regions' closed forms and the reference's stage by stage. -/
theorem algebraic : Cert.algebraic_KernelIdeal_ReferenceIdeal := by
  intro m ρ m' ρ' _ hagree
  refine ⟨fun c => Cert.KernelIdeal.Gen.W4 m ρ c (Proc.devRef .tc Cert.KernelIdeal.main_v30), Cert.KernelIdeal.Run.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  show _ = Cert.KernelIdeal.Gen.W4 m ρ c (Proc.devRef .tc Cert.KernelIdeal.main_v30)
  rw [Cert.ReferenceIdeal.Read.val_main_v41_eq, Cert.ReferenceIdeal.RefValue.result_eq, Cert.KernelIdeal.Val.result_eq,
    h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
